-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x1024 : Shape := ⟨2, ![4096, 1024]⟩
abbrev S1024 : Shape := ⟨1, ![1024]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4x4096x4096 .f32) (main_arg1 : FVec F S4096x1024 .f32) (main_arg2 : FVec F S1024 .f32) (main_arg3 : FVec F S4096x1024 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S4x4096x4096 : Shape := ⟨3, ![4, 4096, 4096]⟩
abbrev S4096x1024 : Shape := ⟨2, ![4096, 1024]⟩
abbrev S1024 : Shape := ⟨1, ![1024]⟩
abbrev S1x1024 : Shape := ⟨2, ![1, 1024]⟩
abbrev S1x256x4096 : Shape := ⟨3, ![1, 256, 4096]⟩
abbrev S256x4096 : Shape := ⟨2, ![256, 4096]⟩
abbrev S256x1024 : Shape := ⟨2, ![256, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .bf16⟩
  | .hbm, ⟨5, _⟩ => ⟨S4096x1024, .bf16⟩
  | .hbm, ⟨6, _⟩ => ⟨S1x1024, .f32⟩
  | .hbm, ⟨7, _⟩ => ⟨S4x4096x4096, .f32⟩
  | .local _ .vmem, ⟨0, _⟩ => ⟨S1x256x4096, .f32⟩
  | .local _ .vmem, ⟨1, _⟩ => ⟨S1x256x4096, .f32⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x256x4096, .f32⟩
  | .local _ .vmem, ⟨6, _⟩ => ⟨S1x256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  shapeCasts_S1024_S1x1024 : S1024.ShapeCasts S1x1024
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x4096_S1x256x4096 : S256x4096.ShapeCasts S1x256x4096
  dot_S256x4096_S4096x1024_S256x1024_1_0_0_1_n_n_wf : DotDims.WF S256x4096 S4096x1024 S256x1024 [1] [0] [0] [1] [] []
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x4096x4096.size a
  hwx0_0 : ∀ i : grid0.Coords, EltTy.bits .f32 = 32 ∨ (Rect.block (s := S4x4096x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x4096.size a ≤ S4x4096x4096.size a
  hwx0_4 : ∀ i : grid0.Coords, EltTy.bits .f32 = 32 ∨ (Rect.block (s := S4x4096x4096) S1x256x4096.size (cc0_transform_4 i) (hinb0_4 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x1024 : Shape := ⟨2, ![4096, 1024]⟩
abbrev S1024 : Shape := ⟨1, ![1024]⟩
abbrev S1x1024 : Shape := ⟨2, ![1, 1024]⟩
abbrev S1024x4096 : Shape := ⟨2, ![1024, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x4096, .f32⟩
  | .hbm, ⟨9, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  dot_S4096x1024_S1024x4096_S4096x4096_1_0_0_1_n_n_wf : DotDims.WF S4096x1024 S1024x4096 S4096x4096 [1] [0] [0] [1] [] []
  dot_S4x4096x4096_S4096x4096_S4x4096x4096_2_1_01_0_n_n_wf : DotDims.WF S4x4096x4096 S4096x4096 S4x4096x4096 [2] [1] [0, 1] [0] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.Spec.lean ====
/-
  The two programs as mathematics, and the law that joins them.

  Both compute a low-rank linear layer on a stack of 4 matrices x[b] (4096 × 4096) with factors U (4096 × 1024),
  S (1024) and V (4096 × 1024):

  * the factored form  out[b, t, o] = Σ_r ((Σ_i x[b, t, i] · V[i, r]) · S[r]) · U[o, r];
  * the dense form     out[b, t, o] = Σ_i x[b, t, i] · (Σ_r (U[o, r] · S[r]) · V[i, r]).

  Over the real numbers these are one number: expand both into the double sum of x·V·S·U over (i, r) — distributivity —
  and exchange the two sums. On the extended reals distributivity fails at the infinities, so the law is stated for
  arrays all of whose entries are real numbers.
-/
import Idealize.ShloMosaic.PureOps.Ideal
import Idealize.ShloMosaic.Lib.ValueIdx

noncomputable section

open scoped BigOperators

namespace Cert.LowRank

open Idealize.ShloMosaic Idealize.ShloMosaic.ValueIdx

/-- An extended real that is a real number. -/
def IsReal (a : EReal) : Prop := ∃ r : ℝ, a = (r : EReal)

/-- The inclusion of the reals in the extended reals commutes with finite sums. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- Regrouping over the reals: Σ_r ((Σ_i x_i · V_ir) · S_r) · U_r = Σ_i x_i · Σ_r (U_r · S_r) · V_ir. Both sides are
    the sum of x_i · V_ir · S_r · U_r over all pairs (i, r). -/
theorem regroup_real {ι ρ : Type*} [Fintype ι] [Fintype ρ] (x : ι → ℝ) (V : ι → ρ → ℝ) (S U : ρ → ℝ) :
    ∑ r, ((∑ i, x i * V i r) * S r) * U r = ∑ i, x i * ∑ r, (U r * S r) * V i r := by
  simp only [Finset.sum_mul, Finset.mul_sum]
  rw [Finset.sum_comm]
  refine Finset.sum_congr rfl fun i _ => Finset.sum_congr rfl fun r _ => ?_
  ring

/-- The same on the extended reals, for entries that are real numbers. -/
theorem regroup {ι ρ : Type*} [Fintype ι] [Fintype ρ] (x : ι → EReal) (V : ι → ρ → EReal) (S U : ρ → EReal)
    (hx : ∀ i, IsReal (x i)) (hV : ∀ i r, IsReal (V i r)) (hS : ∀ r, IsReal (S r)) (hU : ∀ r, IsReal (U r)) :
    ∑ r, ((∑ i, x i * V i r) * S r) * U r = ∑ i, x i * ∑ r, (U r * S r) * V i r := by
  choose x' hx' using hx
  choose V' hV' using hV
  choose S' hS' using hS
  choose U' hU' using hU
  simp only [hx', hV', hS', hU', ← EReal.coe_mul, ← coe_sum]
  exact congrArg _ (regroup_real x' V' S' U')

/-! ## The two forms over the arrays' literal shapes -/

abbrev SX : Shape := ⟨3, ![4, 4096, 4096]⟩
abbrev SF : Shape := ⟨2, ![4096, 1024]⟩
abbrev SS : Shape := ⟨1, ![1024]⟩

/-- The factored form at entry (b, t, o): row t of x[b] times V, each column scaled by S, times row o of U. -/
def factoredAt (x : FVec Ideal SX .f32) (U : FVec Ideal SF .f32) (S : FVec Ideal SS .f32) (V : FVec Ideal SF .f32)
    (b : Fin 4) (t o : Fin 4096) : EReal :=
  ∑ r : Fin 1024, ((∑ i : Fin 4096, x (ix3 b t i) * V (ix2 i r)) * S (ix1 r)) * U (ix2 o r)

/-- The dense form at entry (b, t, o): row t of x[b] times row o of the materialized weight (U · diag S) · Vᵀ. -/
def denseAt (x : FVec Ideal SX .f32) (U : FVec Ideal SF .f32) (S : FVec Ideal SS .f32) (V : FVec Ideal SF .f32)
    (b : Fin 4) (t o : Fin 4096) : EReal :=
  ∑ i : Fin 4096, x (ix3 b t i) * ∑ r : Fin 1024, (U (ix2 o r) * S (ix1 r)) * V (ix2 i r)

/-- The factored form as an array. -/
def factored (x : FVec Ideal SX .f32) (U : FVec Ideal SF .f32) (S : FVec Ideal SS .f32) (V : FVec Ideal SF .f32) :
    FVec Ideal SX .f32 :=
  fun j => factoredAt x U S V (j 0) (j 1) (j 2)

/-- The dense form as an array. -/
def dense (x : FVec Ideal SX .f32) (U : FVec Ideal SF .f32) (S : FVec Ideal SS .f32) (V : FVec Ideal SF .f32) :
    FVec Ideal SX .f32 :=
  fun j => denseAt x U S V (j 0) (j 1) (j 2)

theorem factored_apply (x : FVec Ideal SX .f32) (U : FVec Ideal SF .f32) (S : FVec Ideal SS .f32) (V : FVec Ideal SF .f32)
    (b : Fin 4) (t o : Fin 4096) : factored x U S V (ix3 b t o) = factoredAt x U S V b t o := rfl

theorem dense_apply (x : FVec Ideal SX .f32) (U : FVec Ideal SF .f32) (S : FVec Ideal SS .f32) (V : FVec Ideal SF .f32)
    (b : Fin 4) (t o : Fin 4096) : dense x U S V (ix3 b t o) = denseAt x U S V b t o := rfl

/-- On arrays of real numbers the two forms are one array. -/
theorem factored_eq_dense (x : FVec Ideal SX .f32) (U : FVec Ideal SF .f32) (S : FVec Ideal SS .f32) (V : FVec Ideal SF .f32)
    (hx : ∀ i, IsReal (x i)) (hU : ∀ i, IsReal (U i)) (hS : ∀ i, IsReal (S i)) (hV : ∀ i, IsReal (V i)) :
    factored x U S V = dense x U S V := by
  funext j
  obtain ⟨b, t, o, rfl⟩ : ∃ (b : Fin 4) (t o : Fin 4096), j = ix3 b t o := ⟨j 0, j 1, j 2, eq_ix3 j⟩
  rw [factored_apply, dense_apply]
  exact regroup (fun i : Fin 4096 => x (ix3 b t i)) (fun (i : Fin 4096) (r : Fin 1024) => V (ix2 i r))
    (fun r : Fin 1024 => S (ix1 r)) (fun r : Fin 1024 => U (ix2 o r))
    (fun _ => hx _) (fun _ _ => hV _) (fun _ => hS _) (fun _ => hU _)

end Cert.LowRank

end
-- ==== Proof.Finite.lean ====
/-
  From the precondition to real numbers. The precondition says, of each of the four float inputs, that every entry's
  absolute value is below +∞ (a conjunction of four "all" reductions). An extended real whose absolute value
  max a (−a) is below +∞ is neither infinity, hence a real number.
-/
import proofs.«136354_j70729521431228_1_alg».proof.Pre_finite_inputs
import proofs.«136354_j70729521431228_1_alg».proof.Proof.Gen.Pre_finite_inputs
import proofs.«136354_j70729521431228_1_alg».proof.Proof.Spec
import Idealize.ShloMosaic.Lib.ReduceAll

noncomputable section

namespace Cert.LowRank.Finite

open Idealize.ShloMosaic Idealize.ShloMosaic.ValueIdx Cert.Pre_finite_inputs Cert.Pre_finite_inputs.Gen

/-- The scalar shape has one index. -/
instance : Subsingleton S_.Idx := ⟨fun _ _ => funext fun d => d.elim0⟩

/-- An extended real with |a| < +∞ (the float pattern 0x7F800000 is +∞) is a real number. -/
theorem isReal_of_abs_lt_inf (a : Ideal .f32)
    (h : FloatOps.cmpf .olt (FloatOps.hostAbsf a) (FloatOps.ofBits (F := Ideal) .f32 0x7F800000#32) = 1#1) : IsReal a := by
  have htop : Ideal.ofBits .f32 0x7F800000#32 = ⊤ := by simp [Ideal.ofBits, Ideal.ieee]
  change Ideal.cmp .olt (max (a : EReal) (-(a : EReal))) (Ideal.ofBits .f32 0x7F800000#32) = 1#1 at h
  rw [htop] at h
  unfold Ideal.cmp at h
  induction a using EReal.rec with
  | bot => simp at h
  | top => simp at h
  | coe r => exact ⟨r, rfl⟩

/-- Under the precondition every entry of every input is a real number. -/
theorem all_real (x : FVec Ideal S4x4096x4096 .f32) (U : FVec Ideal S4096x1024 .f32) (S : FVec Ideal S1024 .f32)
    (V : FVec Ideal S4096x1024 .f32) (h : fn (F := Ideal) x U S V = fun _ => 1#1) :
    (∀ i, IsReal (x i)) ∧ (∀ i, IsReal (U i)) ∧ (∀ i, IsReal (S i)) ∧ (∀ i, IsReal (V i)) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => isReal_of_abs_lt_inf _ (Host.reduce_andi_all _ _ _ _ _ h1 i),
    fun i => isReal_of_abs_lt_inf _ (Host.reduce_andi_all _ _ _ _ _ h2 i),
    fun i => isReal_of_abs_lt_inf _ (Host.reduce_andi_all _ _ _ _ _ h3 i),
    fun i => isReal_of_abs_lt_inf _ (Host.reduce_andi_all _ _ _ _ _ h4 i)⟩

end Cert.LowRank.Finite

end
-- ==== Proof.RefValue.lean ====
/-
  The reference's result, read one entry at a time, is the dense form: entry (b, t, o) of x[b] · weightᵀ, where
  weight[o, i] = Σ_r (U[o, r] · S[r]) · V[i, r]. Each host operation is read at an index (the generated read-at-an-index
  lemmas), and the composed index maps are the coordinates one expects: the outer product pairs x's row (b, t) with
  weight's row o; the inner product pairs row o of the scaled U with column i of Vᵀ, which is row i of V; the scale
  S is broadcast along U's rows.
-/
import proofs.«136354_j70729521431228_1_alg».proof.Proof.Gen.ReferenceIdeal.Read
import proofs.«136354_j70729521431228_1_alg».proof.Proof.Spec

noncomputable section

open scoped BigOperators

namespace Cert.LowRank.Ref

open Idealize.ShloMosaic Idealize.ShloMosaic.ValueIdx Cert.ReferenceIdeal Cert.ReferenceIdeal.Read

/-- The outer product's left operand is read at (b, t, i). -/
theorem x_index (b : Fin 4) (t o i : Fin 4096) : lidx_main_v5 (ix3 b t o) i = ix3 b t i :=
  funext fun a => match a with | ⟨0, _⟩ => rfl | ⟨1, _⟩ => rfl | ⟨2, _⟩ => rfl

/-- The inner product's left operand — U scaled — is read at (o, r). -/
theorem u_index (b : Fin 4) (t o i : Fin 4096) (r : Fin 1024) :
    lidx_main_v4 (ridx_main_v5 (ix3 b t o) i) r = ix2 o r :=
  funext fun a => match a with | ⟨0, _⟩ => rfl | ⟨1, _⟩ => rfl

/-- The scale, broadcast over U's rows, is read at r. -/
theorem s_index (o : Fin 4096) (r : Fin 1024) : idx_main_v0 (idx_main_v1 (ix2 o r)) = ix1 r :=
  funext fun a => match a with | ⟨0, _⟩ => rfl

/-- The inner product's right operand — V transposed — is read at V's (i, r). -/
theorem v_index (b : Fin 4) (t o i : Fin 4096) (r : Fin 1024) :
    idx_main_v3 (ridx_main_v4 (ridx_main_v5 (ix3 b t o) i) r) = ix2 i r :=
  funext fun a => match a with | ⟨0, _⟩ => rfl | ⟨1, _⟩ => rfl

/-- The reference's result is the dense form of its arguments. -/
theorem result_eq_dense (x : FVec Ideal S4x4096x4096 .f32) (U : FVec Ideal S4096x1024 .f32) (S : FVec Ideal S1024 .f32)
    (V : FVec Ideal S4096x1024 .f32) : val_main_v5 (F := Ideal) x U S V = dense x U S V := by
  funext j
  obtain ⟨b, t, o, rfl⟩ : ∃ (b : Fin 4) (t o : Fin 4096), j = ix3 b t o := ⟨j 0, j 1, j 2, eq_ix3 j⟩
  rw [val_main_v5_apply, dense_apply]
  unfold denseAt
  refine Finset.sum_congr rfl fun i _ => ?_
  rw [val_main_v4_apply, x_index]
  refine congrArg _ (Finset.sum_congr rfl fun r _ => ?_)
  rw [val_main_v2_apply, u_index, val_main_v1_apply, val_main_v0_apply, s_index, val_main_v3_apply, v_index]
  rfl

end Cert.LowRank.Ref

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.LibMatmulTransposedRhs.lean ====
/-
  A general fact about rank-2 blocks at the ideal values, stated for any extents.

  A kernel's matrix product of an m×k block A by an n×k block B, the right operand contracted on its LAST axis
  (A · Bᵀ), into the zero accumulator, read at entry (a, b), is the plain sum over the contracted coordinate c of
  A(a, c) · B(b, c), whatever contraction precision the operation carries: the ideal product is exact, the zero
  accumulator adds nothing, and the contraction index of a one-axis contraction is its one coordinate.
-/
import Idealize.ShloMosaic.PureOps.Ideal.Laws
import Idealize.ShloMosaic.Lib.ValueIdx

noncomputable section

open scoped BigOperators

namespace Cert.LibMatmulTransposedRhs

open Idealize.ShloMosaic Idealize.ShloMosaic.ValueIdx

variable {m k n : Nat}

/-- The left operand's row coordinate is the output's row. -/
theorem lhs_row (j : (⟨2, ![m, n]⟩ : Shape).Idx) (q : (DotDims.transposedRhs m k n).contr.Idx) :
    ((DotDims.transposedRhs m k n).lhsIdx j q 0).val = (j 0).val := by
  unfold DotDims.lhsIdx
  rw [dif_neg (show ¬(0 : Fin (⟨2, ![m, k]⟩ : Shape).rank) ∈ (DotDims.transposedRhs m k n).lhsBatch from List.not_mem_nil),
    dif_pos (show (0 : Fin (⟨2, ![m, k]⟩ : Shape).rank) ∈ (DotDims.transposedRhs m k n).lhsNonContracting from List.mem_singleton.mpr rfl)]
  rfl

/-- The left operand's column coordinate is the contraction coordinate. -/
theorem lhs_col (j : (⟨2, ![m, n]⟩ : Shape).Idx) (q : (DotDims.transposedRhs m k n).contr.Idx) :
    ((DotDims.transposedRhs m k n).lhsIdx j q 1).val = (q ⟨0, (Nat.one_pos : 0 < (DotDims.transposedRhs m k n).contr.rank)⟩).val :=
  (DotDims.transposedRhs m k n).lhsIdx_val_of_single rfl j q

/-- The right operand's row coordinate is the output's column. -/
theorem rhs_row (j : (⟨2, ![m, n]⟩ : Shape).Idx) (q : (DotDims.transposedRhs m k n).contr.Idx) :
    ((DotDims.transposedRhs m k n).rhsIdx j q 0).val = (j 1).val := by
  unfold DotDims.rhsIdx
  rw [dif_neg (show ¬(0 : Fin (⟨2, ![n, k]⟩ : Shape).rank) ∈ (DotDims.transposedRhs m k n).rhsBatch from List.not_mem_nil),
    dif_pos (show (0 : Fin (⟨2, ![n, k]⟩ : Shape).rank) ∈ (DotDims.transposedRhs m k n).rhsNonContracting from List.mem_singleton.mpr rfl)]
  rfl

/-- The right operand's column coordinate is the contraction coordinate. -/
theorem rhs_col (j : (⟨2, ![m, n]⟩ : Shape).Idx) (q : (DotDims.transposedRhs m k n).contr.Idx) :
    ((DotDims.transposedRhs m k n).rhsIdx j q 1).val = (q ⟨0, (Nat.one_pos : 0 < (DotDims.transposedRhs m k n).contr.rank)⟩).val :=
  (DotDims.transposedRhs m k n).rhsIdx_val_of_single rfl j q

/-- The product A · Bᵀ of an m×k block by an n×k block into the zero accumulator, at the ideal values, read at (a, b):
    Σ_c A(a, c) · B(b, c). The precision argument plays no part: the ideal product is exact. -/
theorem matmul_transposedRhs_zero_apply {φ₁ φ₂ : FTy} (prec : Option ContractPrecision)
    (A : FVec Ideal ⟨2, ![m, k]⟩ φ₁) (B : FVec Ideal ⟨2, ![n, k]⟩ φ₂) (a : Fin m) (b : Fin n) :
    FloatOps.matmul (DotDims.transposedRhs m k n) prec A B (constant ⟨2, ![m, n]⟩ .f32 0x00000000#32) (ix2 a b)
      = ∑ c : Fin k, A (ix2 a c) * B (ix2 b c) := by
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have hl : (DotDims.transposedRhs m k n).lhsIdx (ix2 a b) ((contrEquiv1 (DotDims.transposedRhs m k n) k rfl rfl).symm c)
      = ix2 a c := funext fun ax => Fin.ext (by
    match ax with
    | ⟨0, _⟩ => exact lhs_row _ _
    | ⟨1, _⟩ => exact (lhs_col _ _).trans hc)
  have hr : (DotDims.transposedRhs m k n).rhsIdx (ix2 a b) ((contrEquiv1 (DotDims.transposedRhs m k n) k rfl rfl).symm c)
      = ix2 b c := funext fun ax => Fin.ext (by
    match ax with
    | ⟨0, _⟩ => exact rhs_row _ _
    | ⟨1, _⟩ => exact (rhs_col _ _).trans hc)
  rw [hl, hr]

end Cert.LibMatmulTransposedRhs

end
-- ==== Proof.Payload.lean ====
/-
  The kernel body's arithmetic, read one entry at a time. At one grid point the body holds a 256-row tile of x
  (as a [1, 256, 4096] block), all of V and U (each [4096, 1024]) and S as a one-row block [1, 1024]; it stores the
  [1, 256, 4096] block whose entry (0, a, o) is

      Σ_r ((Σ_i xtile(0, a, i) · V(i, r)) · S(0, r)) · U(o, r).

  At the ideal values a change of float format is the identity; the first product is the plain one (tile · V), the
  second contracts the last axis of both operands (y · Uᵀ); the scale row is broadcast down the 256 rows.
-/
import proofs.«136354_j70729521431228_1_alg».proof.Proof.Gen.KernelIdeal.Skeleton
import proofs.«136354_j70729521431228_1_alg».proof.Proof.LibMatmulPlain
import proofs.«136354_j70729521431228_1_alg».proof.Proof.LibMatmulTransposedRhs
import proofs.«136354_j70729521431228_1_alg».proof.Proof.Spec
import Idealize.ShloMosaic.Lib.ValueLayout
import Idealize.ShloMosaic.Lib.Pipeline.Value

noncomputable section

open scoped BigOperators

namespace Cert.LowRank.Body

open Idealize.ShloMosaic Idealize.ShloMosaic.ValueIdx Cert.KernelIdeal Cert.KernelIdeal.Gen Cert.LowRank

/-- The first product, tile · V, into zero: entry (a, r) is Σ_i tile(a, i) · V(i, r). -/
theorem first_product (A : FVec Ideal S256x4096 .bf16) (B : FVec Ideal S4096x1024 .bf16) (a : Fin 256) (r : Fin 1024) :
    matmul dot_S256x4096_S4096x1024_S256x1024_1_0_0_1_n_n none A B (constant S256x1024 .f32 0x00000000#32) (ix2 a r)
      = ∑ i : Fin 4096, A (ix2 a i) * B (ix2 i r) :=
  Cert.LibMatmulPlain.matmul_plain_zero_apply none A B a r

/-- The second product, y · Uᵀ, into zero: entry (a, o) is Σ_r y(a, r) · U(o, r). -/
theorem second_product (A : FVec Ideal S256x1024 .bf16) (B : FVec Ideal S4096x1024 .bf16) (a : Fin 256) (o : Fin 4096) :
    matmul dot_S256x1024_S4096x1024_S256x4096_1_1_0_0_n_n none A B (constant S256x4096 .f32 0x00000000#32) (ix2 a o)
      = ∑ r : Fin 1024, A (ix2 a r) * B (ix2 o r) :=
  Cert.LibMatmulTransposedRhs.matmul_transposedRhs_zero_apply none A B a o

/-- The stored block at (0, a, o), from the four loaded blocks. -/
theorem stored_apply (xt : Vec Ideal S1x256x4096 .f32) (v : Vec Ideal S4096x1024 .bf16) (s : Vec Ideal S1x1024 .f32)
    (u : Vec Ideal S4096x1024 .bf16) (z : Fin 1) (a : Fin 256) (o : Fin 4096) :
    k0_pay1 (F := Ideal) xt v s u (ix3 z a o)
      = ∑ r : Fin 1024, ((∑ i : Fin 4096, xt (ix3 (0 : Fin 1) a i) * v (ix2 i r)) * s (ix2 (0 : Fin 1) r)) * u (ix2 o r) := by
  unfold k0_pay1
  refine (shapeCast_ab_1ab_apply _ _ z a o).trans ?_
  refine (second_product _ _ a o).trans ?_
  refine Finset.sum_congr rfl fun r _ => ?_
  rw [shapeCast_self, shapeCast_self, shapeCast_self]
  refine congrArg (· * u (ix2 o r)) ?_
  rw [truncf_apply, mulf_apply, first_product, broadcastTo_1b_ab_apply]
  refine congrArg (· * s (ix2 (0 : Fin 1) r)) (Finset.sum_congr rfl fun i _ => ?_)
  rw [truncf_apply, shapeCast_1ab_ab_apply]

/-- The stored block at (0, a, o) is the factored form at (b, t, o') of arrays X, U, S, V, as soon as the four loaded
    blocks read those arrays where the entry needs them: the tile's row a is row t of X[b], the V block is V, the
    scale row is S, and row o of the U block is row o' of U. -/
theorem stored_eq_factoredAt (X : FVec Ideal SX .f32) (Um : FVec Ideal SF .f32) (Sm : FVec Ideal SS .f32)
    (Vm : FVec Ideal SF .f32) (xt : Vec Ideal S1x256x4096 .f32) (v : Vec Ideal S4096x1024 .bf16)
    (s : Vec Ideal S1x1024 .f32) (u : Vec Ideal S4096x1024 .bf16) (b : Fin 4) (t o' : Fin 4096) (z : Fin 1) (a : Fin 256)
    (o : Fin 4096)
    (hx : ∀ i : Fin 4096, xt (ix3 (0 : Fin 1) a i) = X (ix3 b t i))
    (hv : ∀ (i : Fin 4096) (r : Fin 1024), v (ix2 i r) = Vm (ix2 i r))
    (hs : ∀ r : Fin 1024, s (ix2 (0 : Fin 1) r) = Sm (ix1 r))
    (hu : ∀ r : Fin 1024, u (ix2 o r) = Um (ix2 o' r)) :
    k0_pay1 (F := Ideal) xt v s u (ix3 z a o) = factoredAt X Um Sm Vm b t o' := by
  rw [stored_apply]
  unfold factoredAt
  simp only [hx, hv, hs, hu]

end Cert.LowRank.Body

end
-- ==== Proof.KernelValue.lean ====
/-
  The kernel's result array is the factored form of the four arguments.

  The grid has 4 × 16 points; point (b, τ) stages rows 256·τ … 256·τ + 255 of x[b] as its [1, 256, 4096] block and
  writes the same rows of out[b]; the three other operands — V and U converted to bf16 by the host, S reshaped to one
  row — are staged whole at every point (block index 0). At the ideal values the host's conversions are the identity
  and the reshape only renames indices, so the blocks read the argument arrays themselves. Entry (0, a, o) of what
  point (b, τ) writes is then the factored form at (b, 256·τ + a, o) (the body's arithmetic), which is to say the point
  writes its block of the factored form; the 64 blocks tile the output, so the array ends holding the factored form.
-/
import proofs.«136354_j70729521431228_1_alg».proof.Proof.Gen.KernelIdeal.Value
import proofs.«136354_j70729521431228_1_alg».proof.Proof.Payload
import Idealize.ShloMosaic.Lib.StableHlo.Run
import Idealize.ShloMosaic.Lib.ValueLayout

set_option maxRecDepth 16384

noncomputable section

namespace Cert.LowRank.Kernel

open Cert.KernelIdeal Cert.KernelIdeal.Gen Idealize.ShloMosaic Idealize.ShloMosaic.TcCoe Idealize.SL.Sem
open Idealize.ShloMosaic.ValueIdx Idealize.ShloMosaic.StableHlo Cert.LowRank
open Idealize.ShloMosaic.Pipeline (Dat)

variable (m : (ℓ : Loc nD τ sig) → Buf (Elt Ideal) ℓ) (ρ : Dev nD → PrngReg)

/-! ## The operands the host wrote before the region -/

/-- The V operand as the region finds it: the host's conversion of argument 3, the identity at the ideal values. -/
theorem v_operand (c : Dev nD) : (V m c main_v1 : S4096x1024.Idx → EReal) = m ((c : Thread nD τ).loc main_arg3) := by
  dsimp only [V, hostOps0]; after_results; rfl

/-- The U operand as the region finds it: the host's conversion of argument 1. -/
theorem u_operand (c : Dev nD) : (V m c main_v0 : S4096x1024.Idx → EReal) = m ((c : Thread nD τ).loc main_arg1) := by
  dsimp only [V, hostOps0]; after_results; rfl

/-- The S operand as the region finds it: argument 2 laid out as one row. -/
theorem s_operand (c : Dev nD) : (V m c main_v2 : S1x1024.Idx → EReal)
    = shapeCast S1x1024 (m ((c : Thread nD τ).loc main_arg2)) shapeCasts_S1024_S1x1024 := by
  dsimp only [V, hostOps0]; after_results; rfl

/-! ## The index maps over the grid -/

theorem off3 : (![0, 0, 0] : Fin 3 → Nat) = fun _ => 0 := funext fun a => by fin_cases a <;> rfl
theorem off2 : (![0, 0] : Fin 2 → Nat) = fun _ => 0 := funext fun a => by fin_cases a <;> rfl

/-- Decided over the 64 grid points: the x window moves with the output window and neither moves along the last axis;
    the three resident operands never move; the output's block indices stay within 4 × 16. -/
theorem index_facts : ∀ t : Fin cfg0.N,
    win0_0.index t (0 : Fin 3) = win0_4.index t (0 : Fin 3)
    ∧ win0_0.index t (1 : Fin 3) = win0_4.index t (1 : Fin 3)
    ∧ win0_0.index t (2 : Fin 3) = 0 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 3 ∧ win0_4.index t (1 : Fin 3) ≤ 15 :=
  (by decide +kernel : ∀ t : Fin grid0.N, _)

/-- Every one of the 4 × 16 output blocks is some point's. -/
theorem index_onto : ∀ (q0 : Fin 4) (q1 : Fin 16), ∃ t : Fin cfg0.N, win0_4.index t = ![q0.val, q1.val, 0] :=
  (by decide +kernel : ∀ (q0 : Fin 4) (q1 : Fin 16), ∃ t : Fin grid0.N, win0_4.index t = ![q0.val, q1.val, 0])

abbrev argX (c : Dev nD) : FVec Ideal S4x4096x4096 .f32 := m ((c : Thread nD τ).loc main_arg0)
abbrev argU (c : Dev nD) : FVec Ideal S4096x1024 .f32 := m ((c : Thread nD τ).loc main_arg1)
abbrev argS (c : Dev nD) : FVec Ideal S1024 .f32 := m ((c : Thread nD τ).loc main_arg2)
abbrev argV (c : Dev nD) : FVec Ideal S4096x1024 .f32 := m ((c : Thread nD τ).loc main_arg3)

theorem flushed_eq (c : Dev nD) (t : Fin cfg0.N) :
    (dats m 0 c).flushed 4 t = ((cfg0.win 4).blk t).view.read (Elt Ideal)
      (factored (argX m c) (argU m c) (argS m c) (argV m c)) := by
  rw [Cert.KernelIdeal.Value.flushed4]
  unfold out0_4
  rw [View.canon_unit_zero off3]
  simp only [View.ld_unit_zero (S := S1x256x4096) off3, View.ld_unit_zero (S := S4096x1024) off2, View.ld_unit_zero (S := S1x1024) off2]
  obtain ⟨e00, e01, e02, e42, e10, e11, e20, e21, e30, e31, b40, b41⟩ := index_facts t
  refine funext fun (y : S1x256x4096.Idx) => ?_
  obtain ⟨z, a, o, rfl⟩ : ∃ (z : Fin 1) (a : Fin 256) (o : Fin 4096), y = ix3 z a o := ⟨y 0, y 1, y 2, eq_ix3 y⟩
  show k0_pay1 (F := Ideal) (iblk m c 0 t) (iblk m c 1 t) (iblk m c 3 t) (iblk m c 2 t) (ix3 z a o)
    = factored (argX m c) (argU m c) (argS m c) (argV m c) (((cfg0.win 4).blk t).view.emb (ix3 z a o))
  refine Body.stored_eq_factoredAt (argX m c) (argU m c) (argS m c) (argV m c) (iblk m c 0 t) (iblk m c 1 t)
    (iblk m c 3 t) (iblk m c 2 t) _ _ _ z a o (fun i => ?_) (fun i r => ?_) (fun r => ?_) (fun r => ?_)
  · show V m c main_arg0 (((cfg0.win 0).blk t).view.emb (ix3 (0 : Fin 1) a i)) = _
    rw [V_main_arg0]
    refine congrArg (argX m c) (funext fun ax => Fin.ext ?_)
    match ax with
    | ⟨0, _⟩ => show win0_0.index t (0 : Fin 3) * 1 + 1 * 0 = win0_4.index t (0 : Fin 3) * 1 + 1 * z.val; have hz := z.isLt; omega
    | ⟨1, _⟩ => show win0_0.index t (1 : Fin 3) * 256 + 1 * a.val = win0_4.index t (1 : Fin 3) * 256 + 1 * a.val; omega
    | ⟨2, _⟩ => show win0_0.index t (2 : Fin 3) * 4096 + 1 * i.val = i.val; omega
  · show V m c main_v1 (((cfg0.win 1).blk t).view.emb (ix2 i r)) = _
    rw [v_operand]
    refine congrArg (argV m c) (funext fun ax => Fin.ext ?_)
    match ax with
    | ⟨0, _⟩ => show win0_1.index t (0 : Fin 2) * 4096 + 1 * i.val = i.val; omega
    | ⟨1, _⟩ => show win0_1.index t (1 : Fin 2) * 1024 + 1 * r.val = r.val; omega
  · show V m c main_v2 (((cfg0.win 3).blk t).view.emb (ix2 (0 : Fin 1) r)) = _
    rw [s_operand]
    have he : ((cfg0.win 3).blk t).view.emb (ix2 (0 : Fin 1) r) = ix2 (0 : Fin 1) r := funext fun ax => Fin.ext (by
      match ax with
      | ⟨0, _⟩ => show win0_3.index t (0 : Fin 2) * 1 + 1 * 0 = 0; omega
      | ⟨1, _⟩ => show win0_3.index t (1 : Fin 2) * 1024 + 1 * r.val = r.val; omega)
    rw [he]
    exact shapeCast_a_1a_apply _ _ 0 r
  · show V m c main_v0 (((cfg0.win 2).blk t).view.emb (ix2 o r)) = _
    rw [u_operand]
    refine congrArg (argU m c) (funext fun ax => Fin.ext ?_)
    match ax with
    | ⟨0, _⟩ => show win0_2.index t (0 : Fin 2) * 4096 + 1 * o.val = win0_4.index t (2 : Fin 3) * 4096 + 1 * o.val; omega
    | ⟨1, _⟩ => show win0_2.index t (1 : Fin 2) * 1024 + 1 * r.val = r.val; omega

/-! ## The blocks tile the output -/

/-- An index of the output array is in point `t`'s block iff each coordinate is in the block's range on its axis. -/
theorem mem_block (t : Fin cfg0.N) (i : S4x4096x4096.Idx) :
    i ∈ ((cfg0.win 4).blk t).view.set ↔ ∀ a : Fin 3, win0_4.index t a * S1x256x4096.size a ≤ (i a).val
      ∧ (i a).val < win0_4.index t a * S1x256x4096.size a + S1x256x4096.size a := by
  show i ∈ ((View.whole main_v3).slice (win0_4.rect t)).set ↔ _
  rw [View.set_slice_whole, Rect.mem_set_unit]
  exact Iff.rfl

/-- Every index of the output is in some point's block: entry (b, t, o) in that of the point (b, t / 256). -/
theorem covered (i : S4x4096x4096.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 4096 := (i 2).isLt
  obtain ⟨t, ht⟩ := index_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 4096 ≤ (i 2).val ∧ (i 2).val < win0_4.index t (2 : Fin 3) * 4096 + 4096; omega

/-- The output array after the run is the factored form of the arguments. -/
theorem final (c : Dev nD) :
    (dats m 0 c).arrAt 4 cfg0.N = factored (argX m c) (argU m c) (argS m c) (argV m c) :=
  (dats m 0 c).arrAt_eq_of_cover 4 (factored (argX m c) (argU m c) (argS m c) (argV m c))
    (fun t _ => flushed_eq m c t) covered

/-! ## The run -/

/-- Every weakly fair execution of the kernel program terminates with the result array at the factored form of the
    arguments and the arguments unchanged. -/
theorem run : θ_run defs (onTc (τ := τ) (main (F := Ideal))) ⟨m, fun _ => 0, ρ⟩ fun r => ∀ c : Dev nD,
      r.2.mem ((c : Thread nD τ).loc main_v3) = factored (argX m c) (argU m c) (argS m c) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.LowRank.Kernel

end
-- ==== Proof.lean ====
/-
  A low-rank linear layer, out = x · ((U · diag S) · Vᵀ)ᵀ, computed two ways on x : [4, 4096, 4096], U, V : [4096, 1024],
  S : [1024].

  The kernel never forms the 4096 × 4096 weight: per 256-row tile of x[b] it computes ((tile · V) scaled columnwise by
  S) · Uᵀ, so its entry (b, t, o) is  Σ_r ((Σ_i x[b,t,i] · V[i,r]) · S[r]) · U[o,r]  (the factored form). The reference
  forms the weight, weight[o,i] = Σ_r (U[o,r] · S[r]) · V[i,r], and contracts x with it: entry (b, t, o) is
  Σ_i x[b,t,i] · weight[o,i]  (the dense form). At the ideal values the changes of float format in the kernel are the
  identity and every product is exact, so the two differ only by distributing the products over the sums and exchanging
  the order of the sums over i and r. That is an identity of real numbers; on the extended reals it needs the entries
  finite, which is what the precondition provides.

  The modules: Spec (the two forms and the regrouping law), Finite (the precondition makes every entry a real number),
  RefValue (the reference's result is the dense form), Payload (one entry of what the kernel body stores),
  KernelValue (the kernel's result array is the factored form: each grid point writes its block of it, and the blocks
  tile the array). The frames of the two kernel programs are the generated ones; the reference's frame is its run with
  the result dropped; the kernel's idealization rewrote nothing, so there is nothing to preserve.
-/
import proofs.«136354_j70729521431228_1_alg».proof.Defs
import proofs.«136354_j70729521431228_1_alg».proof.Proof.Gen.Kernel
import proofs.«136354_j70729521431228_1_alg».proof.Proof.Gen.Kernel.Skeleton
import proofs.«136354_j70729521431228_1_alg».proof.Proof.Gen.Kernel.Launch
import proofs.«136354_j70729521431228_1_alg».proof.Proof.Gen.Kernel.Points
import proofs.«136354_j70729521431228_1_alg».proof.Proof.Gen.Kernel.Frame
import proofs.«136354_j70729521431228_1_alg».proof.Proof.Gen.KernelIdeal
import proofs.«136354_j70729521431228_1_alg».proof.Proof.Gen.KernelIdeal.Skeleton
import proofs.«136354_j70729521431228_1_alg».proof.Proof.Gen.KernelIdeal.Launch
import proofs.«136354_j70729521431228_1_alg».proof.Proof.Gen.KernelIdeal.Points
import proofs.«136354_j70729521431228_1_alg».proof.Proof.Gen.KernelIdeal.Frame
import proofs.«136354_j70729521431228_1_alg».proof.Proof.Gen.ReferenceIdeal
import proofs.«136354_j70729521431228_1_alg».proof.Proof.Gen.KernelIdeal.Value
import proofs.«136354_j70729521431228_1_alg».proof.Proof.Gen.ReferenceIdeal.Run
import proofs.«136354_j70729521431228_1_alg».proof.Proof.Gen.ReferenceIdeal.Read
import proofs.«136354_j70729521431228_1_alg».proof.Proof.Gen.Pre_finite_inputs
import proofs.«136354_j70729521431228_1_alg».proof.Proof.Spec
import proofs.«136354_j70729521431228_1_alg».proof.Proof.Finite
import proofs.«136354_j70729521431228_1_alg».proof.Proof.RefValue
import proofs.«136354_j70729521431228_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree and are finite, the kernel ends at the factored form and the reference at the dense form
    of the same four arrays of real numbers: one array, by the regrouping law. -/
theorem algebraic : Cert.algebraic_KernelIdeal_ReferenceIdeal := by
  intro m ρ m' ρ' hpre hagree
  refine ⟨fun c => Cert.LowRank.factored (Cert.LowRank.Kernel.argX m c) (Cert.LowRank.Kernel.argU m c)
    (Cert.LowRank.Kernel.argS m c) (Cert.LowRank.Kernel.argV m c), Cert.LowRank.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.LowRank.Ref.result_eq_dense,
    (hagree c).1, (hagree c).2.1, (hagree c).2.2.1, (hagree c).2.2.2]
  obtain ⟨hx, hU, hS, hV⟩ := Cert.LowRank.Finite.all_real _ _ _ _ (hpre c)
  exact (Cert.LowRank.factored_eq_dense _ _ _ _ hx hU hS hV).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
